-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x256x4 : Shape := ⟨3, ![256, 256, 4]⟩
abbrev S256x256 : Shape := ⟨2, ![256, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x256x4 : S_.BroadcastsInDim S256x256x4 (![] : Fin 0 → Fin S256x256x4.rank)
  reducesTo_S256x256x4_S_d0_1_2 : S256x256x4.ReducesTo [0, 1, 2] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S2048x256 .f32) (main_arg1 : FVec F S256x256x4 .f32) (main_arg2 : FVec F S256x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x256x4 .f32 := Host.absf main_arg1
  let main_cst_0 : FVec F S_ .f32 := constant S_ .f32 0x7F800000#32
  let main_v5 : FVec F S256x256x4 .f32 := broadcastInDim S256x256x4 ![] bcast_S_S256x256x4 main_cst_0
  let main_v6 : IVec S256x256x4 1 := cmpf .olt main_v4 main_v5
  let main_c_1 : IVec S_ 1 := constantI S_ 1 1#1
  let main_v7 : IVec S_ 1 := (fun x v => Host.reduce IntOp.andi x v reducesTo_S256x256x4_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S2048x256 : Shape := ⟨2, ![2048, 256]⟩
abbrev S256x256x4 : Shape := ⟨3, ![256, 256, 4]⟩
abbrev S256x256 : Shape := ⟨2, ![256, 256]⟩
abbrev S256x256x1 : Shape := ⟨3, ![256, 256, 1]⟩
abbrev S2048x256x256 : Shape := ⟨3, ![2048, 256, 256]⟩
abbrev S64x128 : Shape := ⟨2, ![64, 128]⟩
abbrev S128x128 : Shape := ⟨2, ![128, 128]⟩
abbrev S64x128x128 : Shape := ⟨3, ![64, 128, 128]⟩
abbrev S1x128x128 : Shape := ⟨3, ![1, 128, 128]⟩
abbrev S64x1x128 : Shape := ⟨3, ![64, 1, 128]⟩

abbrev nBuf : Space → Nat
  | .hbm => 13
  | .vmem => 17
  | .smem => 0
  | _ => 0

abbrev bufTy : (tb : Table) → Fin (tcTables nBuf tb) → BufTy
  | .hbm, ⟨0, _⟩ => ⟨S2048x256, .f32⟩
  | .hbm, ⟨1, _⟩ => ⟨S256x256x4, .f32⟩
  | .hbm, ⟨2, _⟩ => ⟨S256x256, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256x256x1, .f32⟩
  | .hbm, ⟨8, _⟩ => ⟨S256x256, .f32⟩
  | .hbm, ⟨9, _⟩ => ⟨S256x256x1, .f32⟩
  | .hbm, ⟨10, _⟩ => ⟨S256x256, .f32⟩
  | .hbm, ⟨11, _⟩ => ⟨S2048x256, .f32⟩
  | .hbm, ⟨12, _⟩ => ⟨S2048x256x256, .f32⟩
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S64x128, .f32⟩
  | .local _ .vmem, ⟨13, _⟩ => ⟨S64x128, .f32⟩
  | .local _ .vmem, ⟨14, _⟩ => ⟨S64x128x128, .f32⟩
  | .local _ .vmem, ⟨15, _⟩ => ⟨S64x128x128, .f32⟩
  | .local _ .vmem, ⟨16, _⟩ => ⟨S64x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![32, 2, 2], ![false, false, false]⟩

def k0_cond2 (i : grid0.Coords) : BitVec 1 :=
  let arg2 : BitVec 32 := BitVec.ofNat 32 (i 2).val
  let c1_i32 : BitVec 32 := 1#32
  let v37 : BitVec 1 := Scalar.cmpi .eq arg2 c1_i32
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S64x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

class Facts₀ : Prop where
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  shapeCasts_S64x128_S64x1x128 : S64x128.ShapeCasts S64x1x128
  broadcasts_S1x128x128_S64x128x128 : S1x128x128.Broadcasts S64x128x128
  broadcasts_S64x1x128_S64x128x128 : S64x1x128.Broadcasts S64x128x128
  inb_S64x128x128_S64x128x128_0_0_0 : ∀ a, (![0, 0, 0] : Fin 3 → Nat) a + S64x128x128.size a ≤ S64x128x128.size a
  h_S64x128x128 : 0 < S64x128x128.numel
  reduces_S64x128x128_S64x128 : S64x128x128.Reduces [2] S64x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S2048x256.size a
  hwx0_0 : ∀ i : grid0.Coords, EltTy.bits .f32 = 32 ∨ (Rect.block (s := S2048x256) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S256x256.size a
  hwx0_1 : ∀ i : grid0.Coords, EltTy.bits .f32 = 32 ∨ (Rect.block (s := S256x256) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x256.size a
  hwx0_2 : ∀ i : grid0.Coords, EltTy.bits .f32 = 32 ∨ (Rect.block (s := S256x256) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x256.size a
  hwx0_3 : ∀ i : grid0.Coords, EltTy.bits .f32 = 32 ∨ (Rect.block (s := S256x256) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S256x256.size a
  hwx0_4 : ∀ i : grid0.Coords, EltTy.bits .f32 = 32 ∨ (Rect.block (s := S256x256) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S256x256.size a
  hwx0_5 : ∀ i : grid0.Coords, EltTy.bits .f32 = 32 ∨ (Rect.block (s := S256x256) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S2048x256.size a
  hwx0_6 : ∀ i : grid0.Coords, EltTy.bits .f32 = 32 ∨ (Rect.block (s := S2048x256) S64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x128x128.size a ≤ S2048x256x256.size a
  hwx0_7 : ∀ i : grid0.Coords, EltTy.bits .f32 = 32 ∨ (Rect.block (s := S2048x256x256) S64x128x128.size (cc0_transform_7 i) (hinb0_7 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S128x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S64x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S64x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun _ => false | ⟨_ + 8, h⟩ => absurd h (Nat.not_lt.2 (Nat.le_add_left _ _))

class Facts : Prop extends Facts₀ where

variable [Facts]
-- ==== ReferenceIdeal.lean ====
abbrev S2048x256 : Shape := ⟨2, ![2048, 256]⟩
abbrev S256x256x4 : Shape := ⟨3, ![256, 256, 4]⟩
abbrev S256x256 : Shape := ⟨2, ![256, 256]⟩
abbrev S256x256x1 : Shape := ⟨3, ![256, 256, 1]⟩
abbrev S1x256x256 : Shape := ⟨3, ![1, 256, 256]⟩
abbrev S2048x1x256 : Shape := ⟨3, ![2048, 1, 256]⟩
abbrev S2048x256x256 : Shape := ⟨3, ![2048, 256, 256]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x256x4, .f32⟩
  | .hbm, ⟨2, _⟩ => ⟨S256x256, .f32⟩
  | .hbm, ⟨3, _⟩ => ⟨S256x256x1, .f32⟩
  | .hbm, ⟨4, _⟩ => ⟨S256x256, .f32⟩
  | .hbm, ⟨5, _⟩ => ⟨S256x256x1, .f32⟩
  | .hbm, ⟨6, _⟩ => ⟨S256x256, .f32⟩
  | .hbm, ⟨7, _⟩ => ⟨S256x256x1, .f32⟩
  | .hbm, ⟨8, _⟩ => ⟨S256x256, .f32⟩
  | .hbm, ⟨9, _⟩ => ⟨S256x256x1, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S1x256x256, .f32⟩
  | .hbm, ⟨14, _⟩ => ⟨S2048x1x256, .f32⟩
  | .hbm, ⟨15, _⟩ => ⟨S2048x256x256, .f32⟩
  | .hbm, ⟨16, _⟩ => ⟨S2048x256x256, .f32⟩
  | .hbm, ⟨17, _⟩ => ⟨S2048x256x256, .f32⟩
  | .hbm, ⟨18, _⟩ => ⟨S1x256x256, .f32⟩
  | .hbm, ⟨19, _⟩ => ⟨S2048x256x256, .f32⟩
  | .hbm, ⟨20, _⟩ => ⟨S2048x256x256, .f32⟩
  | .hbm, ⟨21, _⟩ => ⟨S2048x256x256, .f32⟩
  | .hbm, ⟨22, _⟩ => ⟨S2048x256x256, .f32⟩
  | .hbm, ⟨23, _⟩ => ⟨S1x256x256, .f32⟩
  | .hbm, ⟨24, _⟩ => ⟨S2048x256x256, .f32⟩
  | .hbm, ⟨25, _⟩ => ⟨S2048x256x256, .f32⟩
  | .hbm, ⟨26, _⟩ => ⟨S2048x256x256, .f32⟩
  | .hbm, ⟨27, _⟩ => ⟨S2048x256x256, .f32⟩
  | .hbm, ⟨28, _⟩ => ⟨S_, .f32⟩
  | .hbm, ⟨29, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩

abbrev nD : Nat := 1
abbrev τ : Topo := Topo.v7x

variable {F : FTy → Type} [FloatOps F]

class Facts₀ : Prop where
  slices_S256x256x4_S256x256x1_0_0_0 : S256x256x4.Slices ![0, 0, 0] S256x256x1
  shapeCasts_S256x256x1_S256x256 : S256x256x1.ShapeCasts S256x256
  slices_S256x256x4_S256x256x1_0_0_1 : S256x256x4.Slices ![0, 0, 1] S256x256x1
  slices_S256x256x4_S256x256x1_0_0_2 : S256x256x4.Slices ![0, 0, 2] S256x256x1
  slices_S256x256x4_S256x256x1_0_0_3 : S256x256x4.Slices ![0, 0, 3] S256x256x1
  bcast_S256x256_S1x256x256_1_2 : S256x256.BroadcastsInDim S1x256x256 (![1, 2] : Fin 2 → Fin S1x256x256.rank)
  bcast_S2048x256_S2048x1x256_0_2 : S2048x256.BroadcastsInDim S2048x1x256 (![0, 2] : Fin 2 → Fin S2048x1x256.rank)
  bcast_S1x256x256_S2048x256x256_0_1_2 : S1x256x256.BroadcastsInDim S2048x256x256 (![0, 1, 2] : Fin 3 → Fin S2048x256x256.rank)
  bcast_S2048x1x256_S2048x256x256_0_1_2 : S2048x1x256.BroadcastsInDim S2048x256x256 (![0, 1, 2] : Fin 3 → Fin S2048x256x256.rank)
  reducesTo_S2048x256x256_S2048x256_d2 : S2048x256x256.ReducesTo [2] S2048x256
  h_S_ : 0 < S_.numel

variable [Facts₀]

class Facts : Prop extends Facts₀ where

variable [Facts]
-- ==== Proof.KanSpec.lean ====
/-
  The edge function of a symbolic KAN layer with identity activations, and its row sums, over the extended reals.

  For an input batch `x` [2048, 256], coefficients `a` [256, 256, 4] and a mask `mk` [256, 256], the value on the
  edge from input feature `i` to output feature `o` for sample `b` is

      edge b o i = mk[o,i] · (a[o,i,2] · (a[o,i,0] · x[b,i] + a[o,i,1]) + a[o,i,3]),

  the layer's first result is the [2048, 256, 256] array of all edge values and its second the [2048, 256] array of
  their sums over the input feature. Only commutativity of the product and commutativity and associativity of the
  sum are ever used on these terms, so nothing here asks the entries to be finite.
-/
import Idealize.ShloMosaic.PureOps.Ideal
import Idealize.ShloMosaic.Lib.ValueIdx
import Mathlib.Algebra.BigOperators.Fin

noncomputable section

namespace Cert.KanSpec

open Idealize.ShloMosaic Idealize.ShloMosaic.ValueIdx

/-- The shapes of the three arguments and the two results. -/
abbrev SX : Shape := ⟨2, ![2048, 256]⟩
abbrev SA : Shape := ⟨3, ![256, 256, 4]⟩
abbrev SM : Shape := ⟨2, ![256, 256]⟩
abbrev SP : Shape := ⟨3, ![2048, 256, 256]⟩

/-- The value on the edge `i → o` for sample `b`. -/
def edge (x : FVec Ideal SX .f32) (a : FVec Ideal SA .f32) (mk : FVec Ideal SM .f32)
    (b : Fin 2048) (o : Fin 256) (i : Fin 256) : EReal :=
  mk (ix2 o i) * (a (ix3 o i 2) * (a (ix3 o i 0) * x (ix2 b i) + a (ix3 o i 1)) + a (ix3 o i 3))

/-- All edge values: the layer's [2048, 256, 256] result. -/
def edges (x : FVec Ideal SX .f32) (a : FVec Ideal SA .f32) (mk : FVec Ideal SM .f32) : FVec Ideal SP .f32 :=
  fun j => edge x a mk (j 0) (j 1) (j 2)

/-- The edge values summed over the input feature: the layer's [2048, 256] result. -/
def rowSums (x : FVec Ideal SX .f32) (a : FVec Ideal SA .f32) (mk : FVec Ideal SM .f32) : FVec Ideal SX .f32 :=
  fun j => ∑ i : Fin 256, edge x a mk (j 0) (j 1) i

/-- The same edge value with every product written the other way round, as a kernel that multiplies the running
    term by the next coefficient writes it. -/
theorem edge_comm (x : FVec Ideal SX .f32) (a : FVec Ideal SA .f32) (mk : FVec Ideal SM .f32)
    (b : Fin 2048) (o : Fin 256) (i : Fin 256) :
    ((a (ix3 o i 0) * x (ix2 b i) + a (ix3 o i 1)) * a (ix3 o i 2) + a (ix3 o i 3)) * mk (ix2 o i) = edge x a mk b o i := by
  unfold edge
  rw [mul_comm (a (ix3 o i 2)), mul_comm (mk (ix2 o i))]

/-- A sum over 256 features is the sum over the first 128 plus the sum over the last 128. -/
theorem sum_halves {M : Type*} [AddCommMonoid M] (f : Fin 256 → M) :
    (∑ i : Fin 256, f i)
      = (∑ i : Fin 128, f ⟨i.val, by have := i.isLt; omega⟩) + ∑ i : Fin 128, f ⟨128 + i.val, by have := i.isLt; omega⟩ :=
  Fin.sum_univ_add (a := 128) (b := 128) f

end Cert.KanSpec

end
-- ==== Proof.KanRef.lean ====
/-
  The reference computes the edge values and their row sums.

  Read one operation at a time, the reference slices the four coefficient planes out of `a` [256, 256, 4], broadcasts
  each plane and the mask over the 2048 samples and the batch over the 256 output features, and forms
  `mk · (a₂ · (a₀ · x + a₁) + a₃)` entry by entry: the edge value. Its second result adds these over the input feature
  from the initial value zero.
-/
import proofs.«115845_j90555090469173_1_alg».proof.Proof.Gen.ReferenceIdeal.Read
import proofs.«115845_j90555090469173_1_alg».proof.Proof.KanSpec

noncomputable section

namespace Cert.KanRef

open Idealize.ShloMosaic Idealize.ShloMosaic.ValueIdx
open Cert.ReferenceIdeal Cert.ReferenceIdeal.Read Cert.KanSpec

/-- The mask entry an index (b, o, i) of the big array reads: (o, i). -/
theorem mask_idx (j : S2048x256x256.Idx) : idx_main_v8 (idx_main_v23 j) = ix2 (j 1) (j 2) :=
  funext fun a => Fin.ext (by match a with | ⟨0, _⟩ => rfl | ⟨1, _⟩ => rfl)

/-- The batch entry it reads: (b, i). -/
theorem batch_idx (j : S2048x256x256.Idx) : idx_main_v11 (idx_main_v13 j) = ix2 (j 0) (j 2) :=
  funext fun a => Fin.ext (by match a with | ⟨0, _⟩ => rfl | ⟨1, _⟩ => rfl)

/-- The entries of the four coefficient planes it reads: (o, i, 0), (o, i, 1), (o, i, 2), (o, i, 3). A plane is the
    slice of `a` at one last coordinate, reshaped from [256, 256, 1] to [256, 256]: the row-major position
    `o · 256 + i` splits back into (o, i). -/
theorem plane0_idx (j : S2048x256x256.Idx) :
    idx_main_v0 (idx_main_v1 (idx_main_v10 (idx_main_v12 j))) = ix3 (j 1) (j 2) (0 : Fin 4) :=
  funext fun a => Fin.ext (by
    have h1 : (j 1).val < 256 := (j 1).isLt
    have h2 : (j 2).val < 256 := (j 2).isLt
    match a with
    | ⟨0, _⟩ => show ((j 1).val * 256 + (j 2).val) / 256 = (j 1).val; omega
    | ⟨1, _⟩ => show ((j 1).val * 256 + (j 2).val) / 1 % 256 = (j 2).val; omega
    | ⟨2, _⟩ => rfl)

theorem plane1_idx (j : S2048x256x256.Idx) :
    idx_main_v2 (idx_main_v3 (idx_main_v15 (idx_main_v16 j))) = ix3 (j 1) (j 2) (1 : Fin 4) :=
  funext fun a => Fin.ext (by
    have h1 : (j 1).val < 256 := (j 1).isLt
    have h2 : (j 2).val < 256 := (j 2).isLt
    match a with
    | ⟨0, _⟩ => show ((j 1).val * 256 + (j 2).val) / 256 = (j 1).val; omega
    | ⟨1, _⟩ => show ((j 1).val * 256 + (j 2).val) / 1 % 256 = (j 2).val; omega
    | ⟨2, _⟩ => rfl)

theorem plane2_idx (j : S2048x256x256.Idx) :
    idx_main_v4 (idx_main_v5 (idx_main_v9 (idx_main_v18 j))) = ix3 (j 1) (j 2) (2 : Fin 4) :=
  funext fun a => Fin.ext (by
    have h1 : (j 1).val < 256 := (j 1).isLt
    have h2 : (j 2).val < 256 := (j 2).isLt
    match a with
    | ⟨0, _⟩ => show ((j 1).val * 256 + (j 2).val) / 256 = (j 1).val; omega
    | ⟨1, _⟩ => show ((j 1).val * 256 + (j 2).val) / 1 % 256 = (j 2).val; omega
    | ⟨2, _⟩ => rfl)

theorem plane3_idx (j : S2048x256x256.Idx) :
    idx_main_v6 (idx_main_v7 (idx_main_v20 (idx_main_v21 j))) = ix3 (j 1) (j 2) (3 : Fin 4) :=
  funext fun a => Fin.ext (by
    have h1 : (j 1).val < 256 := (j 1).isLt
    have h2 : (j 2).val < 256 := (j 2).isLt
    match a with
    | ⟨0, _⟩ => show ((j 1).val * 256 + (j 2).val) / 256 = (j 1).val; omega
    | ⟨1, _⟩ => show ((j 1).val * 256 + (j 2).val) / 1 % 256 = (j 2).val; omega
    | ⟨2, _⟩ => rfl)

/-- The reference's [2048, 256, 256] result is the array of edge values. -/
theorem edges_eq (x : FVec Ideal S2048x256 .f32) (a : FVec Ideal S256x256x4 .f32) (mk : FVec Ideal S256x256 .f32) :
    val_main_v24 (F := Ideal) x a mk = edges x a mk := by
  funext j
  rw [val_main_v24_apply, val_main_v23_apply, val_main_v8_apply, val_main_v22_apply, val_main_v19_apply,
    val_main_v18_apply, val_main_v9_apply, val_main_v5_apply, val_main_v4_apply, val_main_v17_apply,
    val_main_v14_apply, val_main_v12_apply, val_main_v10_apply, val_main_v1_apply, val_main_v0_apply,
    val_main_v13_apply, val_main_v11_apply, val_main_v16_apply, val_main_v15_apply, val_main_v3_apply,
    val_main_v2_apply, val_main_v21_apply, val_main_v20_apply, val_main_v7_apply, val_main_v6_apply,
    mask_idx, batch_idx, plane0_idx, plane1_idx, plane2_idx, plane3_idx]
  rfl

/-- The index the reference's sum at (b, o) visits at `i` is (b, o, i). -/
theorem sum_idx (j : S2048x256.Idx) (i : Fin 256) : idx_main_v25 j i = ix3 (j 0) (j 1) i :=
  funext fun a => Fin.ext (by match a with | ⟨0, _⟩ => rfl | ⟨1, _⟩ => rfl | ⟨2, _⟩ => rfl)

/-- The reference's [2048, 256] result is the array of row sums: its initial value is zero. -/
theorem rowSums_eq (x : FVec Ideal S2048x256 .f32) (a : FVec Ideal S256x256x4 .f32) (mk : FVec Ideal S256x256 .f32) :
    val_main_v25 (F := Ideal) x a mk = rowSums x a mk := by
  funext j
  rw [val_main_v25_apply, val_main_cst_apply, edges_eq]
  show Ideal.ofBits .f32 0x00000000#32 + _ = _
  rw [Ideal.ofBits_zero_f32, zero_add]
  exact Finset.sum_congr rfl fun i _ => by rw [sum_idx]; rfl

end Cert.KanRef

end
-- ==== Proof.KanPieces.lean ====
/-
  What one grid step leaves in its buffers, as values.

  A step at the first half of the input features (case A) clears the accumulator, stores the step's [64, 128, 128]
  block of terms, and leaves the accumulator at zero plus the block's lane sums. A step at the second half (case B)
  stores its block, adds the block's lane sums to what the step before left in the accumulator, and copies the
  accumulator into the block of row sums. Each buffer is stored whole, so what it holds afterwards is the last
  value stored into it.
-/
import proofs.«115845_j90555090469173_1_alg».proof.Proof.Gen.KernelIdeal.Frame
import Idealize.ShloMosaic.Lib.Pipeline.Value
import Idealize.ShloMosaic.Lib.Tactic

noncomputable section

namespace Cert.KanPieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg3 : Memref sig .tc .vmem S64x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S64x128 .f32) (harg9 : arg9.IsWhole)
  (arg10 : Memref sig .tc .vmem S64x128x128 .f32) (harg10 : arg10.IsWhole)
  (arg11 : Memref sig .tc .vmem S64x128 .f32) (harg11 : arg11.IsWhole)
  (x0 : Vec F S64x128 .f32) (x1 x2 x3 x4 x5 : Vec F S128x128 .f32)

/-- Case A leaves the step's block of terms in the big output's buffer. -/
theorem blockA (hc0 : cond0_0 i) (hc1 : ¬cond0_1 i) :
    out0_A_7 c i arg3 harg3 arg4 harg4 arg5 harg5 arg6 harg6 arg7 harg7 arg8 harg8 arg9 harg9 arg10 harg10 arg11 harg11 hc0 hc1 x0 x1 x2 x3 x4 x5 = k0_pay3 x0 x1 x2 x3 x4 x5 := by
  unfold out0_A_7
  rw [View.read_writes_eq_canon _ _ _ (cover0_A_7 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_unit_zero hz3]
  simp only [View.readAt_eq_ld, harg3.read_unread, harg4.read_unread, harg5.read_unread, harg6.read_unread,
    harg7.read_unread, harg8.read_unread, harg11.read_unread, View.ld_unit_zero (S := S64x128) hz2,
    View.ld_unit_zero (S := S128x128) hz2, View.readCov_unit_zero (S := S64x128) _ hz2]

/-- Case A leaves the accumulator at its reset value plus the block's lane sums: the reset is stored first, read
    back, and the sum stored over it. -/
theorem accA (hc0 : cond0_0 i) (hc1 : ¬cond0_1 i) :
    sout0_A_0 c i arg3 harg3 arg4 harg4 arg5 harg5 arg6 harg6 arg7 harg7 arg8 harg8 arg9 harg9 arg10 harg10 arg11 harg11 hc0 hc1 x0 x1 x2 x3 x4 x5 = k0_pay1 (k0_pay4 x0 x1 x2 x3 x4 x5 (k0_pay2 (F := F))) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S64x128) hz2]
  simp only [View.readAt_eq_ld, harg3.read_unread, harg4.read_unread, harg5.read_unread, harg6.read_unread,
    harg7.read_unread, harg8.read_unread, harg11.read_unread, View.ld_unit_zero (S := S64x128) hz2,
    View.ld_unit_zero (S := S128x128) hz2, View.readCov_unit_zero (S := S64x128) _ hz2]

/-- Case B leaves the step's block of terms in the big output's buffer. -/
theorem blockB (hc0 : ¬cond0_0 i) (hc1 : cond0_1 i) (xs0 : Vec F S64x128 .f32) :
    out0_B_7 c i arg3 harg3 arg4 harg4 arg5 harg5 arg6 harg6 arg7 harg7 arg8 harg8 arg9 harg9 arg10 harg10 arg11 harg11 hc0 hc1 x0 x1 x2 x3 x4 x5 xs0 = k0_pay3 x0 x1 x2 x3 x4 x5 := by
  unfold out0_B_7
  rw [View.read_writes_eq_canon _ _ _ (cover0_B_7 c i arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  sl_unfold_words
  rw [View.canon_unit_zero hz3]
  simp only [View.readAt_eq_ld, harg3.read_unread, harg4.read_unread, harg5.read_unread, harg6.read_unread,
    harg7.read_unread, harg8.read_unread, harg11.read_unread, View.ld_unit_zero (S := S64x128) hz2,
    View.ld_unit_zero (S := S128x128) hz2, View.readCov_unit_zero (S := S64x128) _ hz2]

/-- Case B leaves the accumulator at what the step before left plus the block's lane sums. -/
theorem accB (hc0 : ¬cond0_0 i) (hc1 : cond0_1 i) (xs0 : Vec F S64x128 .f32) :
    sout0_B_0 c i arg3 harg3 arg4 harg4 arg5 harg5 arg6 harg6 arg7 harg7 arg8 harg8 arg9 harg9 arg10 harg10 arg11 harg11 hc0 hc1 x0 x1 x2 x3 x4 x5 xs0 = k0_pay1 (k0_pay4 x0 x1 x2 x3 x4 x5 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread,
    harg7.read_unread, harg8.read_unread, harg11.read_unread, View.ld_unit_zero (S := S64x128) hz2,
    View.ld_unit_zero (S := S128x128) hz2, View.readCov_unit_zero (S := S64x128) _ hz2]

/-- Case B copies the accumulator, as it has just left it, into the block of row sums. -/
theorem rowsB (hc0 : ¬cond0_0 i) (hc1 : cond0_1 i) (xs0 : Vec F S64x128 .f32) :
    out0_B_6 c i arg3 harg3 arg4 harg4 arg5 harg5 arg6 harg6 arg7 harg7 arg8 harg8 arg9 harg9 arg10 harg10 arg11 harg11 hc0 hc1 x0 x1 x2 x3 x4 x5 xs0 = k0_pay1 (k0_pay4 x0 x1 x2 x3 x4 x5 xs0) := by
  unfold out0_B_6
  rw [View.read_writes_eq_canon _ _ _ (cover0_B_6 c i arg3 harg3 arg4 harg4 arg5 harg5 arg6 harg6 arg7 harg7 arg8 harg8 arg9 harg9 arg10 harg10 arg11 harg11 hc0 hc1 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread,
    harg7.read_unread, harg8.read_unread, harg11.read_unread, View.ld_unit_zero (S := S64x128) hz2,
    View.ld_unit_zero (S := S128x128) hz2, View.readCov_unit_zero (S := S64x128) _ hz2]

end Cert.KanPieces

end
-- ==== Proof.LibBroadcast3.lean ====
/-
  Two rank-3 broadcasts read at an index.

  A kernel that combines a per-row table `w` [a, b] with a batch `x` [n, b] into an [n, a, b] block first gives each
  operand the missing unit axis by a shape cast and then broadcasts it along that axis:

      w [a, b] → [1, a, b] → [n, a, b]      reads, at (p, q, r), `w (q, r)`;
      x [n, b] → [n, 1, b] → [n, a, b]      reads, at (p, q, r), `x (p, r)`.

  Both facts hold for any element type and any extents.
-/
import Idealize.ShloMosaic.Lib.Pipeline.Value
import Idealize.ShloMosaic.Lib.ValueIdx
import Idealize.ShloMosaic.Lib.ValueLayout

namespace Cert.LibBroadcast3

open Idealize.ShloMosaic Idealize.ShloMosaic.ValueIdx

variable {α : Type}

/-- A table `w` [a, b], given a leading unit axis and broadcast along it to [n, a, b], reads `w (q, r)` at (p, q, r). -/
theorem plane_apply {n a b : ℕ} (w : (⟨2, ![a, b]⟩ : Shape).Idx → α)
    (hc : (⟨2, ![a, b]⟩ : Shape).ShapeCasts ⟨3, ![1, a, b]⟩)
    (hb : (⟨3, ![1, a, b]⟩ : Shape).Broadcasts ⟨3, ![n, a, b]⟩) (p : Fin n) (q : Fin a) (r : Fin b) :
    broadcastTo ⟨3, ![n, a, b]⟩ (shapeCast ⟨3, ![1, a, b]⟩ w hc) hb (ix3 p q r) = w (ix2 q r) := by
  refine (broadcastTo_apply _ hb (ix3 p q r) (ix3 (0 : Fin 1) q r) fun ax => ?_).trans
    (shapeCast_ab_1ab_apply w hc 0 q r)
  match ax with
  | ⟨0, _⟩ => rfl
  | ⟨1, _⟩ =>
    show q.val = if a = 1 then 0 else q.val
    split
    · have := q.isLt; omega
    · rfl
  | ⟨2, _⟩ =>
    show r.val = if b = 1 then 0 else r.val
    split
    · have := r.isLt; omega
    · rfl

/-- A batch `x` [n, b] cast to [n, 1, b] reads `x (p, r)` at (p, u, r): the two indices have one row-major position. -/
theorem shapeCast_nb_n1b_apply {n b : ℕ} (x : (⟨2, ![n, b]⟩ : Shape).Idx → α)
    (hc : (⟨2, ![n, b]⟩ : Shape).ShapeCasts ⟨3, ![n, 1, b]⟩) (p : Fin n) (u : Fin 1) (r : Fin b) :
    shapeCast ⟨3, ![n, 1, b]⟩ x hc (ix3 p u r) = x (ix2 p r) :=
  shapeCast_apply x hc _ _ (by
    have hu : u.val = 0 := by omega
    rw [Shape.rowMajor_val_three, Shape.rowMajor_val_two]
    show p.val * b + r.val = (p.val * 1 + u.val) * b + r.val
    rw [hu, Nat.mul_one, Nat.add_zero])

/-- A batch `x` [n, b], given a middle unit axis and broadcast along it to [n, a, b], reads `x (p, r)` at (p, q, r). -/
theorem row_apply {n a b : ℕ} (x : (⟨2, ![n, b]⟩ : Shape).Idx → α)
    (hc : (⟨2, ![n, b]⟩ : Shape).ShapeCasts ⟨3, ![n, 1, b]⟩)
    (hb : (⟨3, ![n, 1, b]⟩ : Shape).Broadcasts ⟨3, ![n, a, b]⟩) (p : Fin n) (q : Fin a) (r : Fin b) :
    broadcastTo ⟨3, ![n, a, b]⟩ (shapeCast ⟨3, ![n, 1, b]⟩ x hc) hb (ix3 p q r) = x (ix2 p r) := by
  refine (broadcastTo_apply _ hb (ix3 p q r) (ix3 p (0 : Fin 1) r) fun ax => ?_).trans
    (shapeCast_nb_n1b_apply x hc p 0 r)
  match ax with
  | ⟨0, _⟩ =>
    show p.val = if n = 1 then 0 else p.val
    split
    · have := p.isLt; omega
    · rfl
  | ⟨1, _⟩ => rfl
  | ⟨2, _⟩ =>
    show r.val = if b = 1 then 0 else r.val
    split
    · have := r.isLt; omega
    · rfl

end Cert.LibBroadcast3
-- ==== Proof.KanBody.lean ====
/-
  The arithmetic of one grid step, read at an index, over the extended reals.

  At one grid step the kernel holds a block `xb` [64, 128] of the batch, blocks `c0 c1 c2 c3` [128, 128] of the four
  coefficient planes and a block `mb` [128, 128] of the mask. It forms the [64, 128, 128] block

      term (s, o, i) = ((c0 (o, i) · xb (s, i) + c1 (o, i)) · c2 (o, i) + c3 (o, i)) · mb (o, i)

  (each plane broadcast over the 64 samples, the batch block over the 128 output features), stores it, and adds its
  sums over the last axis to the running [64, 128] accumulator.
-/
import proofs.«115845_j90555090469173_1_alg».proof.Proof.Gen.KernelIdeal.Skeleton
import proofs.«115845_j90555090469173_1_alg».proof.Proof.LibBroadcast3
import Idealize.ShloMosaic.PureOps.Ideal.Laws

noncomputable section

namespace Cert.KanBody

open Idealize.ShloMosaic Idealize.ShloMosaic.ValueIdx
open Cert.KernelIdeal Cert.KernelIdeal.Gen Cert.LibBroadcast3

/-- The step's term at one index of the [64, 128, 128] block. -/
def term (xb : FVec Ideal S64x128 .f32) (c0 c1 c2 c3 mb : FVec Ideal S128x128 .f32)
    (s : Fin 64) (o i : Fin 128) : EReal :=
  ((c0 (ix2 o i) * xb (ix2 s i) + c1 (ix2 o i)) * c2 (ix2 o i) + c3 (ix2 o i)) * mb (ix2 o i)

/-- The block the step stores holds `term` at every index. -/
theorem block_apply (xb : FVec Ideal S64x128 .f32) (c0 c1 c2 c3 mb : FVec Ideal S128x128 .f32)
    (s : Fin 64) (o i : Fin 128) :
    k0_pay3 (F := Ideal) xb c0 c1 c2 c3 mb (ix3 s o i) = term xb c0 c1 c2 c3 mb s o i := by
  unfold k0_pay3 term
  simp only [mulf_apply, addf_apply, shapeCast_self]
  rw [plane_apply c0, plane_apply c1, plane_apply c2, plane_apply c3, plane_apply mb, row_apply xb]

/-- The index a lane sum at (s, o) visits at lane `i` is (s, o, i). -/
theorem lift_eq (s : Fin 64) (o i : Fin 128) :
    reduces_S64x128x128_S64x128.lift (ix2 s o) i = ix3 s o i :=
  funext fun a => Fin.ext (by match a with | ⟨0, _⟩ => rfl | ⟨1, _⟩ => rfl | ⟨2, _⟩ => rfl)

/-- The accumulator after the step: what it held plus the sum of the step's terms over the 128 lanes. -/
theorem acc_apply (xb : FVec Ideal S64x128 .f32) (c0 c1 c2 c3 mb : FVec Ideal S128x128 .f32)
    (acc : FVec Ideal S64x128 .f32) (s : Fin 64) (o : Fin 128) :
    k0_pay1 (F := Ideal) (k0_pay4 (F := Ideal) xb c0 c1 c2 c3 mb acc) (ix2 s o)
      = acc (ix2 s o) + ∑ i : Fin 128, term xb c0 c1 c2 c3 mb s o i := by
  unfold k0_pay1 k0_pay4
  rw [shapeCast_self, addf_apply]
  refine congrArg (acc (ix2 s o) + ·) ?_
  refine (Ideal.multiReduction_add_single (k0_pay3 (F := Ideal) xb c0 c1 c2 c3 mb) 0x00000000#32
    reduces_S64x128x128_S64x128 (.inl rfl) rfl (ix2 s o)).trans ?_
  show (∑ i : Fin 128, k0_pay3 (F := Ideal) xb c0 c1 c2 c3 mb (reduces_S64x128x128_S64x128.lift (ix2 s o) i)) = _
  exact Finset.sum_congr rfl fun i _ =>
    (congrArg (k0_pay3 (F := Ideal) xb c0 c1 c2 c3 mb) (lift_eq s o i)).trans (block_apply xb c0 c1 c2 c3 mb s o i)

/-- The accumulator's reset value is zero everywhere. -/
theorem reset_apply (j : S64x128.Idx) : k0_pay2 (F := Ideal) j = 0 := by
  unfold k0_pay2
  rw [shapeCast_self]
  exact Ideal.ofBits_zero_f32

end Cert.KanBody

end
-- ==== Proof.LibPlaneSlice.lean ====
/-
  One plane of a rank-3 table, read at an index.

  Taking the plane `k` of a table `a` [p, q, r] along its last axis — the slice [0:p, 0:q, k:k+1], which has shape
  [p, q, 1], reshaped to [p, q] — reads `a (o, i, k)` at (o, i): the slice keeps the first two coordinates and moves
  the last by `k`, and the reshape drops a trailing unit axis, which does not change the row-major position.
-/
import Idealize.ShloMosaic.Lib.Pipeline.Value
import Idealize.ShloMosaic.Lib.ValueIdx

namespace Cert.LibPlaneSlice

open Idealize.ShloMosaic Idealize.ShloMosaic.ValueIdx

variable {α : Type}

/-- A [p, q, 1] array reshaped to [p, q] reads, at (o, i), the operand at (o, i, 0). -/
theorem shapeCast_pq1_pq_apply {p q : ℕ} (y : (⟨3, ![p, q, 1]⟩ : Shape).Idx → α)
    (hc : (⟨3, ![p, q, 1]⟩ : Shape).ShapeCasts ⟨2, ![p, q]⟩) (o : Fin p) (i : Fin q) :
    shapeCast ⟨2, ![p, q]⟩ y hc (ix2 o i) = y (ix3 o i (0 : Fin 1)) :=
  shapeCast_apply y hc _ _ (by
    rw [Shape.rowMajor_val_three, Shape.rowMajor_val_two]
    show (o.val * q + i.val) * 1 + 0 = o.val * q + i.val
    omega)

/-- The plane `k` of `a` [p, q, r], sliced out and reshaped to [p, q], reads `a (o, i, k)` at (o, i). -/
theorem plane_apply {p q r : ℕ} (k : Fin r) (a : (⟨3, ![p, q, r]⟩ : Shape).Idx → α)
    (hs : (⟨3, ![p, q, r]⟩ : Shape).Slices ![0, 0, k.val] ⟨3, ![p, q, 1]⟩)
    (hc : (⟨3, ![p, q, 1]⟩ : Shape).ShapeCasts ⟨2, ![p, q]⟩) (o : Fin p) (i : Fin q) :
    shapeCast ⟨2, ![p, q]⟩ (extractStridedSlice ⟨3, ![p, q, 1]⟩ ![0, 0, k.val] a hs) hc (ix2 o i) = a (ix3 o i k) := by
  rw [shapeCast_pq1_pq_apply]
  exact extractStridedSlice_apply ![0, 0, k.val] a hs (ix3 o i (0 : Fin 1)) (ix3 o i k) fun ax => by
    match ax with
    | ⟨0, _⟩ => show o.val = 0 + o.val; omega
    | ⟨1, _⟩ => show i.val = 0 + i.val; omega
    | ⟨2, _⟩ => show k.val = k.val + 0; omega

end Cert.LibPlaneSlice
-- ==== Proof.KanKernel.lean ====
/-
  What the kernel's two result arrays hold after the run.

  The grid has 128 points: point `t` works on the batch tile `t / 4` (64 samples), the output-feature tile
  `t / 2 % 2` (128 features) and the input-feature tile `t % 2` (128 features). At every point the block of terms the
  body forms is the block of edge values at those three tiles, and it is written to that block of the big result.
  At an even point the accumulator is cleared and receives the lane sums over the first 128 input features; at the
  odd point that follows it receives the lane sums over the last 128 and is written to the block of row sums. So the
  big result ends holding every edge value, and the small one every row sum: the sum over 256 features, split in
  halves.
-/
import proofs.«115845_j90555090469173_1_alg».proof.Proof.Gen.KernelIdeal.Value
import proofs.«115845_j90555090469173_1_alg».proof.Proof.KanPieces
import proofs.«115845_j90555090469173_1_alg».proof.Proof.KanBody
import proofs.«115845_j90555090469173_1_alg».proof.Proof.KanSpec
import proofs.«115845_j90555090469173_1_alg».proof.Proof.LibPlaneSlice
import Idealize.ShloMosaic.Lib.StableHlo.Run

noncomputable section

namespace Cert.KanKernel

open Idealize.ShloMosaic Idealize.ShloMosaic.TcCoe Idealize.SL.Sem Idealize.ShloMosaic.ValueIdx
open Idealize.ShloMosaic.Pipeline (Dat)
open Cert.KernelIdeal Cert.KernelIdeal.Gen Cert.KanSpec

variable (m : (ℓ : Loc nD τ sig) → Buf (Elt Ideal) ℓ) (ρ : Dev nD → PrngReg)

/-! ## The arguments, and the blocks a point holds, under their literal shapes -/

abbrev xArr (c : Dev nD) : FVec Ideal S2048x256 .f32 := m ((c : Thread nD τ).loc main_arg0)
abbrev aArr (c : Dev nD) : FVec Ideal S256x256x4 .f32 := m ((c : Thread nD τ).loc main_arg1)
abbrev mArr (c : Dev nD) : FVec Ideal S256x256 .f32 := m ((c : Thread nD τ).loc main_arg2)

abbrev xb (c : Dev nD) (t : Fin cfg0.N) : FVec Ideal S64x128 .f32 := iblk m c 0 t
abbrev p0b (c : Dev nD) (t : Fin cfg0.N) : FVec Ideal S128x128 .f32 := iblk m c 1 t
abbrev p1b (c : Dev nD) (t : Fin cfg0.N) : FVec Ideal S128x128 .f32 := iblk m c 2 t
abbrev p2b (c : Dev nD) (t : Fin cfg0.N) : FVec Ideal S128x128 .f32 := iblk m c 3 t
abbrev p3b (c : Dev nD) (t : Fin cfg0.N) : FVec Ideal S128x128 .f32 := iblk m c 4 t
abbrev mb (c : Dev nD) (t : Fin cfg0.N) : FVec Ideal S128x128 .f32 := iblk m c 5 t

/-- The two results the kernel is to end with. -/
abbrev edgesArr (c : Dev nD) : Buf (Elt Ideal) ((c : Thread nD τ).loc main_v8_1) := edges (xArr m c) (aArr m c) (mArr m c)
abbrev rowSumsArr (c : Dev nD) : Buf (Elt Ideal) ((c : Thread nD τ).loc main_v8_0) := rowSums (xArr m c) (aArr m c) (mArr m c)

/-! ## The block index of every window at every point, decided over the grid -/

/-- The batch moves with the sample tile and the input-feature tile. -/
theorem idxX : ∀ t : Fin cfg0.N, win0_0.index t (0 : Fin 2) = t.val / 4 ∧ win0_0.index t (1 : Fin 2) = t.val % 2 :=
  (by decide +kernel : ∀ t : Fin grid0.N, _)

/-- The four coefficient planes and the mask all move with the output-feature tile and the input-feature tile. -/
theorem idxP : ∀ t : Fin cfg0.N,
    (win0_1.index t (0 : Fin 2) = t.val / 2 % 2 ∧ win0_1.index t (1 : Fin 2) = t.val % 2)
    ∧ (win0_2.index t (0 : Fin 2) = t.val / 2 % 2 ∧ win0_2.index t (1 : Fin 2) = t.val % 2)
    ∧ (win0_3.index t (0 : Fin 2) = t.val / 2 % 2 ∧ win0_3.index t (1 : Fin 2) = t.val % 2)
    ∧ (win0_4.index t (0 : Fin 2) = t.val / 2 % 2 ∧ win0_4.index t (1 : Fin 2) = t.val % 2)
    ∧ (win0_5.index t (0 : Fin 2) = t.val / 2 % 2 ∧ win0_5.index t (1 : Fin 2) = t.val % 2) :=
  (by decide +kernel : ∀ t : Fin grid0.N, _)

/-- The row sums move with the sample tile and the output-feature tile, the edge values with all three. -/
theorem idxY : ∀ t : Fin cfg0.N, win0_6.index t (0 : Fin 2) = t.val / 4 ∧ win0_6.index t (1 : Fin 2) = t.val / 2 % 2 :=
  (by decide +kernel : ∀ t : Fin grid0.N, _)
theorem idxE : ∀ t : Fin cfg0.N, win0_7.index t (0 : Fin 3) = t.val / 4 ∧ win0_7.index t (1 : Fin 3) = t.val / 2 % 2
    ∧ win0_7.index t (2 : Fin 3) = t.val % 2 :=
  (by decide +kernel : ∀ t : Fin grid0.N, _)

/-! ## The input blocks read at an index -/

/-- An index of a rank-2 array whose coordinates are a tile number times the tile's extent plus a coordinate inside
    the tile, as a block's embedding spells them, is the index with those coordinates. -/
theorem tile_ix2 {n0 n1 : ℕ} (E : (⟨2, ![n0, n1]⟩ : Shape).Idx) (q0 q1 e0 e1 y0 y1 : ℕ) (P : Fin n0) (Q : Fin n1)
    (h0 : (E 0).val = q0 * e0 + 1 * y0) (h1 : (E 1).val = q1 * e1 + 1 * y1)
    (hP : P.val = e0 * q0 + y0) (hQ : Q.val = e1 * q1 + y1) : E = ix2 P Q :=
  funext fun a => Fin.ext (by
    match a with
    | ⟨0, _⟩ => show (E 0).val = P.val; rw [h0, hP, Nat.mul_comm, Nat.one_mul]
    | ⟨1, _⟩ => show (E 1).val = Q.val; rw [h1, hQ, Nat.mul_comm, Nat.one_mul])

/-- The batch block a point holds, read at (s, i): the batch at the point's sample tile and input-feature tile. -/
theorem xb_apply (c : Dev nD) (t : Fin cfg0.N) (s : Fin 64) (i : Fin 128) (b : Fin 2048) (I : Fin 256)
    (hb : b.val = 64 * (t.val / 4) + s.val) (hI : I.val = 128 * (t.val % 2) + i.val) :
    xb m c t (ix2 s i) = xArr m c (ix2 b I) := by
  obtain ⟨e0, e1⟩ := idxX t
  show V m c main_arg0 (((cfg0.win 0).blk t).view.emb (ix2 s i)) = _
  refine (congrFun (V_main_arg0 m c) _).trans (congrArg (xArr m c) ?_)
  exact tile_ix2 _ (t.val / 4) (t.val % 2) 64 128 s.val i.val b I
    (show win0_0.index t (0 : Fin 2) * 64 + 1 * s.val = _ by rw [e0])
    (show win0_0.index t (1 : Fin 2) * 128 + 1 * i.val = _ by rw [e1]) hb hI

/-- The mask block a point holds, read at (o, i): the mask at the point's output-feature and input-feature tiles. -/
theorem mb_apply (c : Dev nD) (t : Fin cfg0.N) (o i : Fin 128) (O I : Fin 256)
    (hO : O.val = 128 * (t.val / 2 % 2) + o.val) (hI : I.val = 128 * (t.val % 2) + i.val) :
    mb m c t (ix2 o i) = mArr m c (ix2 O I) := by
  obtain ⟨-, -, -, -, e0, e1⟩ := idxP t
  show V m c main_arg2 (((cfg0.win 5).blk t).view.emb (ix2 o i)) = _
  refine (congrFun (V_main_arg2 m c) _).trans (congrArg (mArr m c) ?_)
  exact tile_ix2 _ (t.val / 2 % 2) (t.val % 2) 128 128 o.val i.val O I
    (show win0_5.index t (0 : Fin 2) * 128 + 1 * o.val = _ by rw [e0])
    (show win0_5.index t (1 : Fin 2) * 128 + 1 * i.val = _ by rw [e1]) hO hI

/-- The four coefficient planes as the region finds them: the host has sliced plane `k` out of `a` and reshaped it,
    so its entry (O, I) is `a (O, I, k)`. -/
theorem plane0_entry (c : Dev nD) (O I : Fin 256) :
    (V m c main_v1 : FVec Ideal S256x256 .f32) (ix2 O I) = aArr m c (ix3 O I (0 : Fin 4)) := by
  have e : (V m c main_v1 : S256x256.Idx → EReal)
      = shapeCast S256x256 (extractStridedSlice S256x256x1 ![0, 0, 0] (aArr m c) slices_S256x256x4_S256x256x1_0_0_0)
          shapeCasts_S256x256x1_S256x256 := by
    dsimp only [V, hostOps0]; after_results; rfl
  rw [e]
  exact LibPlaneSlice.plane_apply (0 : Fin 4) (aArr m c) slices_S256x256x4_S256x256x1_0_0_0 shapeCasts_S256x256x1_S256x256 O I

theorem plane1_entry (c : Dev nD) (O I : Fin 256) :
    (V m c main_v3 : FVec Ideal S256x256 .f32) (ix2 O I) = aArr m c (ix3 O I (1 : Fin 4)) := by
  have e : (V m c main_v3 : S256x256.Idx → EReal)
      = shapeCast S256x256 (extractStridedSlice S256x256x1 ![0, 0, 1] (aArr m c) slices_S256x256x4_S256x256x1_0_0_1)
          shapeCasts_S256x256x1_S256x256 := by
    dsimp only [V, hostOps0]; after_results; rfl
  rw [e]
  exact LibPlaneSlice.plane_apply (1 : Fin 4) (aArr m c) slices_S256x256x4_S256x256x1_0_0_1 shapeCasts_S256x256x1_S256x256 O I

theorem plane2_entry (c : Dev nD) (O I : Fin 256) :
    (V m c main_v5 : FVec Ideal S256x256 .f32) (ix2 O I) = aArr m c (ix3 O I (2 : Fin 4)) := by
  have e : (V m c main_v5 : S256x256.Idx → EReal)
      = shapeCast S256x256 (extractStridedSlice S256x256x1 ![0, 0, 2] (aArr m c) slices_S256x256x4_S256x256x1_0_0_2)
          shapeCasts_S256x256x1_S256x256 := by
    dsimp only [V, hostOps0]; after_results; rfl
  rw [e]
  exact LibPlaneSlice.plane_apply (2 : Fin 4) (aArr m c) slices_S256x256x4_S256x256x1_0_0_2 shapeCasts_S256x256x1_S256x256 O I

theorem plane3_entry (c : Dev nD) (O I : Fin 256) :
    (V m c main_v7 : FVec Ideal S256x256 .f32) (ix2 O I) = aArr m c (ix3 O I (3 : Fin 4)) := by
  have e : (V m c main_v7 : S256x256.Idx → EReal)
      = shapeCast S256x256 (extractStridedSlice S256x256x1 ![0, 0, 3] (aArr m c) slices_S256x256x4_S256x256x1_0_0_3)
          shapeCasts_S256x256x1_S256x256 := by
    dsimp only [V, hostOps0]; after_results; rfl
  rw [e]
  exact LibPlaneSlice.plane_apply (3 : Fin 4) (aArr m c) slices_S256x256x4_S256x256x1_0_0_3 shapeCasts_S256x256x1_S256x256 O I

/-- The blocks of the four planes a point holds, read at (o, i): each plane at the point's output-feature tile and
    input-feature tile. -/
theorem planes_apply (c : Dev nD) (t : Fin cfg0.N) (o i : Fin 128) (O I : Fin 256)
    (hO : O.val = 128 * (t.val / 2 % 2) + o.val) (hI : I.val = 128 * (t.val % 2) + i.val) :
    p0b m c t (ix2 o i) = aArr m c (ix3 O I (0 : Fin 4)) ∧ p1b m c t (ix2 o i) = aArr m c (ix3 O I (1 : Fin 4))
    ∧ p2b m c t (ix2 o i) = aArr m c (ix3 O I (2 : Fin 4)) ∧ p3b m c t (ix2 o i) = aArr m c (ix3 O I (3 : Fin 4)) := by
  obtain ⟨⟨a0, a1⟩, ⟨b0, b1⟩, ⟨c0, c1⟩, ⟨d0, d1⟩, -⟩ := idxP t
  refine ⟨?_, ?_, ?_, ?_⟩
  · show V m c main_v1 (((cfg0.win 1).blk t).view.emb (ix2 o i)) = _
    exact (congrArg (V m c main_v1) (tile_ix2 _ (t.val / 2 % 2) (t.val % 2) 128 128 o.val i.val O I
      (show win0_1.index t (0 : Fin 2) * 128 + 1 * o.val = _ by rw [a0])
      (show win0_1.index t (1 : Fin 2) * 128 + 1 * i.val = _ by rw [a1]) hO hI)).trans (plane0_entry m c O I)
  · show V m c main_v3 (((cfg0.win 2).blk t).view.emb (ix2 o i)) = _
    exact (congrArg (V m c main_v3) (tile_ix2 _ (t.val / 2 % 2) (t.val % 2) 128 128 o.val i.val O I
      (show win0_2.index t (0 : Fin 2) * 128 + 1 * o.val = _ by rw [b0])
      (show win0_2.index t (1 : Fin 2) * 128 + 1 * i.val = _ by rw [b1]) hO hI)).trans (plane1_entry m c O I)
  · show V m c main_v5 (((cfg0.win 3).blk t).view.emb (ix2 o i)) = _
    exact (congrArg (V m c main_v5) (tile_ix2 _ (t.val / 2 % 2) (t.val % 2) 128 128 o.val i.val O I
      (show win0_3.index t (0 : Fin 2) * 128 + 1 * o.val = _ by rw [c0])
      (show win0_3.index t (1 : Fin 2) * 128 + 1 * i.val = _ by rw [c1]) hO hI)).trans (plane2_entry m c O I)
  · show V m c main_v7 (((cfg0.win 4).blk t).view.emb (ix2 o i)) = _
    exact (congrArg (V m c main_v7) (tile_ix2 _ (t.val / 2 % 2) (t.val % 2) 128 128 o.val i.val O I
      (show win0_4.index t (0 : Fin 2) * 128 + 1 * o.val = _ by rw [d0])
      (show win0_4.index t (1 : Fin 2) * 128 + 1 * i.val = _ by rw [d1]) hO hI)).trans (plane3_entry m c O I)

/-! ## A point's term is an edge value -/

/-- The term a point forms at (s, o, i) is the edge value at the sample, the output feature and the input feature
    those coordinates name inside the point's three tiles. -/
theorem term_eq (c : Dev nD) (t : Fin cfg0.N) (s : Fin 64) (o i : Fin 128) (b : Fin 2048) (O I : Fin 256)
    (hb : b.val = 64 * (t.val / 4) + s.val) (hO : O.val = 128 * (t.val / 2 % 2) + o.val)
    (hI : I.val = 128 * (t.val % 2) + i.val) :
    KanBody.term (xb m c t) (p0b m c t) (p1b m c t) (p2b m c t) (p3b m c t) (mb m c t) s o i
      = edge (xArr m c) (aArr m c) (mArr m c) b O I := by
  obtain ⟨h0, h1, h2, h3⟩ := planes_apply m c t o i O I hO hI
  unfold KanBody.term
  rw [xb_apply m c t s i b I hb hI, h0, h1, h2, h3, mb_apply m c t o i O I hO hI]
  exact edge_comm (xArr m c) (aArr m c) (mArr m c) b O I

end Cert.KanKernel

end
-- ==== Proof.KanArrays.lean ====
/-
  From the blocks a point writes to the two whole result arrays.

  Every point writes its [64, 128, 128] block of terms — the edge values at its three tiles — to the big result, and
  the 128 points' blocks tile that array. An odd point `t` writes the accumulator to the block of row sums at its
  sample tile and output-feature tile: the accumulator holds zero, plus the lane sums of point `t - 1` (the same
  two tiles, input features 0 … 127), plus the lane sums of point `t` (input features 128 … 255), which is the sum
  over all 256 input features. The 64 odd points' blocks tile the small result.
-/
import proofs.«115845_j90555090469173_1_alg».proof.Proof.KanKernel

noncomputable section

namespace Cert.KanArrays

open Idealize.ShloMosaic Idealize.ShloMosaic.TcCoe Idealize.SL.Sem Idealize.ShloMosaic.ValueIdx
open Idealize.ShloMosaic.Pipeline (Dat)
open Cert.KernelIdeal Cert.KernelIdeal.Gen Cert.KanSpec Cert.KanKernel

variable (m : (ℓ : Loc nD τ sig) → Buf (Elt Ideal) ℓ) (ρ : Dev nD → PrngReg)

/-! ## The big result: every point's block is a block of edge values -/

/-- The block of terms a point forms, read through the window, is that block of the array of edge values. -/
theorem block_eq (c : Dev nD) (t : Fin cfg0.N) :
    (cfg0.win 7).cut (grid0.coords t)
        (k0_pay3 (F := Ideal) (xb m c t) (p0b m c t) (p1b m c t) (p2b m c t) (p3b m c t) (mb m c t))
      = ((cfg0.win 7).blk t).view.read (Elt Ideal) (edgesArr m c) := by
  obtain ⟨e0, e1, e2⟩ := idxE t
  funext y
  have hs : (y 0).val < 64 := (y 0).isLt
  have ho : (y 1).val < 128 := (y 1).isLt
  have hi : (y 2).val < 128 := (y 2).isLt
  have hy : (cfg0.win 7).xinj (grid0.coords t) y
      = ix3 (⟨(y 0).val, hs⟩ : Fin 64) (⟨(y 1).val, ho⟩ : Fin 128) (⟨(y 2).val, hi⟩ : Fin 128) :=
    funext fun a => Fin.ext (by match a with | ⟨0, _⟩ => rfl | ⟨1, _⟩ => rfl | ⟨2, _⟩ => rfl)
  show k0_pay3 (F := Ideal) (xb m c t) (p0b m c t) (p1b m c t) (p2b m c t) (p3b m c t) (mb m c t)
      ((cfg0.win 7).xinj (grid0.coords t) y) = _
  rw [hy, View.read_apply]
  refine (KanBody.block_apply (xb m c t) (p0b m c t) (p1b m c t) (p2b m c t) (p3b m c t) (mb m c t) _ _ _).trans ?_
  exact term_eq m c t _ _ _ (((cfg0.win 7).blk t).view.emb y 0) (((cfg0.win 7).blk t).view.emb y 1)
    (((cfg0.win 7).blk t).view.emb y 2)
    (by show win0_7.index t (0 : Fin 3) * 64 + 1 * (y 0).val = 64 * (t.val / 4) + (y 0).val; rw [e0]; omega)
    (by show win0_7.index t (1 : Fin 3) * 128 + 1 * (y 1).val = 128 * (t.val / 2 % 2) + (y 1).val; rw [e1]; omega)
    (by show win0_7.index t (2 : Fin 3) * 128 + 1 * (y 2).val = 128 * (t.val % 2) + (y 2).val; rw [e2]; omega)

/-- What any point writes back to the big result is its block of the array of edge values: at an even point and
    at an odd one alike the buffer holds the block of terms. -/
theorem flushed7_eq (c : Dev nD) (t : Fin cfg0.N) (_ : (cfg0.win 7).flush t = true) :
    (dats m 0 c).flushed 7 t = ((cfg0.win 7).blk t).view.read (Elt Ideal) (edgesArr m c) := by
  by_cases h0 : t.val % 2 = 0
  · have h1 : ¬t.val % 2 = 1 := by omega
    rw [Value.flushed7_A m c t h0 h1, KanPieces.blockA]
    exact block_eq m c t
  · have h1 : t.val % 2 = 1 := by omega
    rw [Value.flushed7_B m c t h0 h1, KanPieces.blockB]
    exact block_eq m c t

/-- An index of the big result lies in point `t`'s block iff each coordinate lies in the block's range on its axis. -/
theorem mem_blk7 (t : Fin cfg0.N) (j : S2048x256x256.Idx) :
    j ∈ ((cfg0.win 7).blk t).view.set ↔ ∀ a : Fin 3, win0_7.index t a * S64x128x128.size a ≤ (j a).val
      ∧ (j a).val < win0_7.index t a * S64x128x128.size a + S64x128x128.size a := by
  show j ∈ ((View.whole main_v8_1).slice (win0_7.rect t)).set ↔ _
  rw [View.set_slice_whole, Rect.mem_set_unit]
  exact Iff.rfl

/-- Every index of the big result lies in the block of the point its three tiles name. -/
theorem cover7 (j : S2048x256x256.Idx) :
    ∃ t : Fin cfg0.N, (cfg0.win 7).flush t = true ∧ j ∈ ((cfg0.win 7).blk t).view.set := by
  have h0 : (j 0).val < 2048 := (j 0).isLt
  have h1 : (j 1).val < 256 := (j 1).isLt
  have h2 : (j 2).val < 256 := (j 2).isLt
  have hN : cfg0.N = 128 := N_0
  refine ⟨⟨4 * ((j 0).val / 64) + 2 * ((j 1).val / 128) + (j 2).val / 128, by rw [hN]; omega⟩, flush0_7 _, ?_⟩
  rw [mem_blk7]
  obtain ⟨e0, e1, e2⟩ := idxE ⟨4 * ((j 0).val / 64) + 2 * ((j 1).val / 128) + (j 2).val / 128, by rw [hN]; omega⟩
  intro a
  match a with
  | ⟨0, _⟩ =>
    show win0_7.index _ (0 : Fin 3) * 64 ≤ (j 0).val ∧ (j 0).val < win0_7.index _ (0 : Fin 3) * 64 + 64
    rw [e0]; dsimp only; omega
  | ⟨1, _⟩ =>
    show win0_7.index _ (1 : Fin 3) * 128 ≤ (j 1).val ∧ (j 1).val < win0_7.index _ (1 : Fin 3) * 128 + 128
    rw [e1]; dsimp only; omega
  | ⟨2, _⟩ =>
    show win0_7.index _ (2 : Fin 3) * 128 ≤ (j 2).val ∧ (j 2).val < win0_7.index _ (2 : Fin 3) * 128 + 128
    rw [e2]; dsimp only; omega

/-- The big result ends holding every edge value. -/
theorem final7 (c : Dev nD) : (dats m 0 c).arrAt 7 cfg0.N = edgesArr m c :=
  (dats m 0 c).arrAt_eq_of_cover 7 (edgesArr m c) (flushed7_eq m c) cover7

/-! ## The small result: the accumulator after an odd point holds the row sums -/

/-- After an even point the accumulator holds its reset value plus the lane sums of that point's block. -/
theorem acc_even (c : Dev nD) (n : ℕ) (hn : n < cfg0.N) (h0 : n % 2 = 0) :
    (outsAt0 m c n hn).2.2
      = k0_pay1 (F := Ideal) (k0_pay4 (F := Ideal) (xb m c ⟨n, hn⟩) (p0b m c ⟨n, hn⟩) (p1b m c ⟨n, hn⟩) (p2b m c ⟨n, hn⟩)
          (p3b m c ⟨n, hn⟩) (mb m c ⟨n, hn⟩) (k0_pay2 (F := Ideal))) := by
  have h1 : ¬n % 2 = 1 := by omega
  rw [outsAt0_A m c ⟨n, hn⟩ h0 h1]
  dsimp only
  exact KanPieces.accA c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩)
    (hs0_5 ⟨n, hn⟩) (ms0_6 ⟨n, hn⟩) (hs0_6 ⟨n, hn⟩) (ms0_7 ⟨n, hn⟩) (hs0_7 ⟨n, hn⟩) scM0_0 (Memref.isWhole_whole _)
    (iblk m c 0 ⟨n, hn⟩) (iblk m c 1 ⟨n, hn⟩) (iblk m c 2 ⟨n, hn⟩) (iblk m c 3 ⟨n, hn⟩) (iblk m c 4 ⟨n, hn⟩)
    (iblk m c 5 ⟨n, hn⟩) ((hcond0_0 ⟨n, hn⟩).mpr h0) (fun h => h1 ((hcond0_1 ⟨n, hn⟩).mp h))

/-- What an odd point writes back to the small result is its block of the array of row sums. -/
theorem flushed6_eq (c : Dev nD) (t : Fin cfg0.N) (hf : (cfg0.win 6).flush t = true) :
    (dats m 0 c).flushed 6 t = ((cfg0.win 6).blk t).view.read (Elt Ideal) (rowSumsArr m c) := by
  have hN : t.val < 128 := lt_of_lt_of_eq t.isLt N_0
  have h1 : t.val % 2 = 1 := (flush0_6 t).mp hf
  have h0 : ¬t.val % 2 = 0 := by omega
  have hlt : t.val - 1 < cfg0.N := Nat.lt_of_le_of_lt (Nat.sub_le _ _) t.isLt
  rw [Value.flushed6_B m c t h0 h1, KanPieces.rowsB, acc_even m c (t.val - 1) hlt (by omega)]
  obtain ⟨e0, e1⟩ := idxY t
  funext y
  have hs : (y 0).val < 64 := (y 0).isLt
  have ho : (y 1).val < 128 := (y 1).isLt
  have hy : (cfg0.win 6).xinj (grid0.coords t) y = ix2 (⟨(y 0).val, hs⟩ : Fin 64) (⟨(y 1).val, ho⟩ : Fin 128) :=
    funext fun a => Fin.ext (by match a with | ⟨0, _⟩ => rfl | ⟨1, _⟩ => rfl)
  show k0_pay1 (F := Ideal) (k0_pay4 (F := Ideal) (xb m c t) (p0b m c t) (p1b m c t) (p2b m c t) (p3b m c t) (mb m c t)
      (k0_pay1 (F := Ideal) (k0_pay4 (F := Ideal) (xb m c ⟨t.val - 1, hlt⟩) (p0b m c ⟨t.val - 1, hlt⟩)
        (p1b m c ⟨t.val - 1, hlt⟩) (p2b m c ⟨t.val - 1, hlt⟩) (p3b m c ⟨t.val - 1, hlt⟩) (mb m c ⟨t.val - 1, hlt⟩)
        (k0_pay2 (F := Ideal))))) ((cfg0.win 6).xinj (grid0.coords t) y) = _
  rw [hy, View.read_apply, KanBody.acc_apply, KanBody.acc_apply, KanBody.reset_apply, zero_add]
  show _ = ∑ I : Fin 256, edge (xArr m c) (aArr m c) (mArr m c) (((cfg0.win 6).blk t).view.emb y 0)
    (((cfg0.win 6).blk t).view.emb y 1) I
  rw [sum_halves]
  have hb : (((cfg0.win 6).blk t).view.emb y 0).val = 64 * (t.val / 4) + (y 0).val := by
    show win0_6.index t (0 : Fin 2) * 64 + 1 * (y 0).val = _; rw [e0]; omega
  have hO : (((cfg0.win 6).blk t).view.emb y 1).val = 128 * (t.val / 2 % 2) + (y 1).val := by
    show win0_6.index t (1 : Fin 2) * 128 + 1 * (y 1).val = _; rw [e1]; omega
  refine congrArg₂ (· + ·) (Finset.sum_congr rfl fun i _ => ?_) (Finset.sum_congr rfl fun i _ => ?_)
  · exact term_eq m c ⟨t.val - 1, hlt⟩ _ _ i _ _ ⟨i.val, by have := i.isLt; omega⟩
      (by rw [hb]; show _ = 64 * ((t.val - 1) / 4) + (y 0).val; omega)
      (by rw [hO]; show _ = 128 * ((t.val - 1) / 2 % 2) + (y 1).val; omega)
      (by show i.val = 128 * ((t.val - 1) % 2) + i.val; omega)
  · exact term_eq m c t _ _ i _ _ ⟨128 + i.val, by have := i.isLt; omega⟩ hb hO
      (by show 128 + i.val = 128 * (t.val % 2) + i.val; omega)

/-- An index of the small result lies in point `t`'s block iff each coordinate lies in the block's range. -/
theorem mem_blk6 (t : Fin cfg0.N) (j : S2048x256.Idx) :
    j ∈ ((cfg0.win 6).blk t).view.set ↔ ∀ a : Fin 2, win0_6.index t a * S64x128.size a ≤ (j a).val
      ∧ (j a).val < win0_6.index t a * S64x128.size a + S64x128.size a := by
  show j ∈ ((View.whole main_v8_0).slice (win0_6.rect t)).set ↔ _
  rw [View.set_slice_whole, Rect.mem_set_unit]
  exact Iff.rfl

/-- Every index of the small result lies in the block of the odd point its two tiles name. -/
theorem cover6 (j : S2048x256.Idx) :
    ∃ t : Fin cfg0.N, (cfg0.win 6).flush t = true ∧ j ∈ ((cfg0.win 6).blk t).view.set := by
  have h0 : (j 0).val < 2048 := (j 0).isLt
  have h1 : (j 1).val < 256 := (j 1).isLt
  have hN : cfg0.N = 128 := N_0
  refine ⟨⟨4 * ((j 0).val / 64) + 2 * ((j 1).val / 128) + 1, by rw [hN]; omega⟩,
    (flush0_6 _).mpr (by dsimp only; omega), ?_⟩
  rw [mem_blk6]
  obtain ⟨e0, e1⟩ := idxY ⟨4 * ((j 0).val / 64) + 2 * ((j 1).val / 128) + 1, by rw [hN]; omega⟩
  intro a
  match a with
  | ⟨0, _⟩ =>
    show win0_6.index _ (0 : Fin 2) * 64 ≤ (j 0).val ∧ (j 0).val < win0_6.index _ (0 : Fin 2) * 64 + 64
    rw [e0]; dsimp only; omega
  | ⟨1, _⟩ =>
    show win0_6.index _ (1 : Fin 2) * 128 ≤ (j 1).val ∧ (j 1).val < win0_6.index _ (1 : Fin 2) * 128 + 128
    rw [e1]; dsimp only; omega

/-- The small result ends holding every row sum. -/
theorem final6 (c : Dev nD) : (dats m 0 c).arrAt 6 cfg0.N = rowSumsArr m c :=
  (dats m 0 c).arrAt_eq_of_cover 6 (rowSumsArr m c) (flushed6_eq m c) cover6

/-! ## The run -/

/-- Every weakly fair execution of the idealized kernel terminates with the row sums and the edge values of its
    arguments in its two results, the arguments unchanged. -/
theorem run : θ_run defs (onTc (τ := τ) (main (F := Ideal))) ⟨m, fun _ => 0, ρ⟩ fun r => ∀ c : Dev nD,
      r.2.mem ((c : Thread nD τ).loc main_v8_0) = rowSumsArr m c
      ∧ r.2.mem ((c : Thread nD τ).loc main_v8_1) = edgesArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final6 m c), (h c).2.1.trans (final7 m c), (h c).2.2⟩)
    (Value.run_blocks m ρ)

end Cert.KanArrays

end
-- ==== Proof.lean ====
/-
  A symbolic KAN layer with identity activations: the tiled kernel computes what the reference computes.

  For a batch `x` [2048, 256], coefficients `a` [256, 256, 4] and a mask `mk` [256, 256] both programs return the
  array of edge values `mk[o,i] · (a[o,i,2] · (a[o,i,0] · x[b,i] + a[o,i,1]) + a[o,i,3])` and its sums over the input
  feature `i`. The reference forms them in one piece. The kernel walks a 32 × 2 × 2 grid of tiles, writes each
  [64, 128, 128] block of edge values as it forms it (with every product written the other way round), and adds
  the block's lane sums into an accumulator it clears at the first half of the input features and writes out at
  the second. Over the extended reals products commute and sums commute and associate, so the blocks are blocks of
  the reference's array and the accumulator's `(0 + first half) + second half` is the reference's `0 + whole sum`;
  no entry needs to be finite. The idealization rewrote nothing, so the word-level kernel needs only its frame.
-/
import proofs.«115845_j90555090469173_1_alg».proof.Defs
import proofs.«115845_j90555090469173_1_alg».proof.Proof.Gen.Kernel
import proofs.«115845_j90555090469173_1_alg».proof.Proof.Gen.Kernel.Skeleton
import proofs.«115845_j90555090469173_1_alg».proof.Proof.Gen.Kernel.Launch
import proofs.«115845_j90555090469173_1_alg».proof.Proof.Gen.Kernel.Points
import proofs.«115845_j90555090469173_1_alg».proof.Proof.Gen.Kernel.Frame
import proofs.«115845_j90555090469173_1_alg».proof.Proof.Gen.KernelIdeal
import proofs.«115845_j90555090469173_1_alg».proof.Proof.Gen.KernelIdeal.Skeleton
import proofs.«115845_j90555090469173_1_alg».proof.Proof.Gen.KernelIdeal.Launch
import proofs.«115845_j90555090469173_1_alg».proof.Proof.Gen.KernelIdeal.Points
import proofs.«115845_j90555090469173_1_alg».proof.Proof.Gen.KernelIdeal.Frame
import proofs.«115845_j90555090469173_1_alg».proof.Proof.Gen.ReferenceIdeal
import proofs.«115845_j90555090469173_1_alg».proof.Proof.Gen.Pre_finite_inputs
import proofs.«115845_j90555090469173_1_alg».proof.Proof.Gen.KernelIdeal.Value
import proofs.«115845_j90555090469173_1_alg».proof.Proof.Gen.ReferenceIdeal.Run
import proofs.«115845_j90555090469173_1_alg».proof.Proof.Gen.ReferenceIdeal.Read
import proofs.«115845_j90555090469173_1_alg».proof.Proof.KanRef
import proofs.«115845_j90555090469173_1_alg».proof.Proof.KanArrays
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- The reference is a straight line of host operations: its run, with the results forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both idealized programs end with the row sums and the edge values of their arguments: the kernel by its
    tiles and its accumulator, the reference operation by operation; the arguments agree, so the results do. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KanKernel.rowSumsArr m c, fun c => Cert.KanKernel.edgesArr m c, Cert.KanArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v25_eq, Cert.KanRef.rowSums_eq, (hagree c).1, (hagree c).2.1, (hagree c).2.2]
  · rw [Cert.ReferenceIdeal.Read.val_main_v24_eq, Cert.KanRef.edges_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
